-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x128 : Shape := ⟨2, ![8192, 128]⟩
abbrev S2048x128 : Shape := ⟨2, ![2048, 128]⟩
abbrev S2048x1 : Shape := ⟨2, ![2048, 1]⟩
abbrev S2048x256 : Shape := ⟨2, ![2048, 256]⟩
abbrev S512x128 : Shape := ⟨2, ![512, 128]⟩
abbrev S512x256 : Shape := ⟨2, ![512, 256]⟩
abbrev S2048x512 : Shape := ⟨2, ![2048, 512]⟩
abbrev S2048 : Shape := ⟨1, ![2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S8192x128, .f32⟩
  | .local _ .vmem, ⟨3, _⟩ => ⟨S8192x128, .f32⟩
  | .local _ .vmem, ⟨4, _⟩ => ⟨S2048x128, .f32⟩
  | .local _ .vmem, ⟨5, _⟩ => ⟨S2048x128, .f32⟩
  | .local _ .vmem, ⟨6, _⟩ => ⟨S2048x1, .f32⟩
  | .local _ .vmem, ⟨7, _⟩ => ⟨S2048x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v20 : BitVec 32 := Scalar.muli arg7 c512_i32
  v20
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v20 : BitVec 32 := Scalar.muli arg7 c512_i32
  let v21 : BitVec 32 := v20
  let v22 : Index := Scalar.indexCast v21
  let c0_15 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  h_S512x128 : 0 < S512x128.numel
  concatenates_S512x128_S512x128_S512x256_d1 : Shape.Concatenates [S512x128, S512x128] S512x256 1
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  inb_S2048x256_S2048x128_0_128 : ∀ a, (![0, 128] : Fin 2 → Nat) a + S2048x128.size a ≤ S2048x256.size a
  inb_S2048x256_S2048x128_0_0 : ∀ a, (![0, 0] : Fin 2 → Nat) a + S2048x128.size a ≤ S2048x256.size a
  dot_S2048x128_S512x128_S2048x512_1_1_0_0_n_n_wf : DotDims.WF S2048x128 S512x128 S2048x512 [1] [1] [0] [0] [] []
  dot_S2048x512_S512x256_S2048x256_1_0_0_1_n_n_wf : DotDims.WF S2048x512 S512x256 S2048x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S8192x128_S8192x8192_1_1_0_0_n_n_wf : DotDims.WF S8192x128 S8192x128 S8192x8192 [1] [1] [0] [0] [] []
  dot_S8192x8192_S8192x128_S8192x128_1_0_0_1_n_n_wf : DotDims.WF S8192x8192 S8192x128 S8192x128 [1] [0] [0] [1] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Finite.lean ====
/-
  The precondition gives finite inputs: every entry of the three arrays is a real number.

  The precondition says, for each array x, that |x| < +∞ at every entry (a conjunction over all entries, and over the
  three arrays). On the extended reals max (x, -x) < ⊤ excludes ⊤ and ⊥, so the entry is a real.
-/
import proofs.«429636_j11828339933196_3_alg».proof.Pre_finite_inputs
import proofs.«429636_j11828339933196_3_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Idealize.ShloMosaic

variable [Cert.Pre_finite_inputs.Facts]
open Cert.Pre_finite_inputs.Facts

instance : Subsingleton S_.Idx := ⟨fun a b => funext fun d => d.elim0⟩

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry's test |x| < +∞ holds only of a real entry. -/
theorem elem_finite (a : FVec Ideal S8192x128 .f32) (i : S8192x128.Idx)
    (h : cmpf .olt (Host.absf a) (broadcastInDim S8192x128 ![] bcast_S_S8192x128 (constant (F := Ideal) S_ .f32 0x7F800000#32)) i = 1#1) :
    ∃ x : ℝ, a i = (x : EReal) := by
  have hb : broadcastInDim S8192x128 ![] bcast_S_S8192x128 (constant (F := Ideal) S_ .f32 0x7F800000#32) i = (⊤ : EReal) := by
    rw [broadcastInDim_apply _ bcast_S_S8192x128 _ i (fun a => a.elim0) (fun a => a.elim0)]
    show Ideal.ofBits .f32 0x7F800000#32 = ⊤
    simp [Ideal.ofBits, Ideal.ieee]
  have h' : Ideal.cmp .olt (max (a i) (-(a i))) (broadcastInDim S8192x128 ![] bcast_S_S8192x128 (constant (F := Ideal) S_ .f32 0x7F800000#32) i) = 1#1 := h
  rw [hb] at h'
  refine real_of_abs_lt_top (a i) ?_
  unfold Ideal.cmp at h'
  by_contra hn
  simp [hn] at h'

/-- The precondition, all ones, gives real entries in all three arrays. -/
theorem finite_of_pre (a0 a1 a2 : FVec Ideal S8192x128 .f32) (h : fn (F := Ideal) a0 a1 a2 = fun _ => 1#1) :
    (∀ i, ∃ x : ℝ, a0 i = (x : EReal)) ∧ (∀ i, ∃ x : ℝ, a1 i = (x : EReal)) ∧ (∀ i, ∃ x : ℝ, a2 i = (x : EReal)) := by
  have h0 := congrFun h ValueIdx.ix0
  dsimp only [fn] at h0
  obtain ⟨h01, h2⟩ := IntOp.andi_eq_one.mp h0
  obtain ⟨h0', h1'⟩ := IntOp.andi_eq_one.mp h01
  exact ⟨fun i => elem_finite a0 i (Host.reduce_andi_all _ _ _ _ _ h0' i),
    fun i => elem_finite a1 i (Host.reduce_andi_all _ _ _ _ _ h1' i),
    fun i => elem_finite a2 i (Host.reduce_andi_all _ _ _ _ _ h2 i)⟩

end Cert.Pre_finite_inputs.Finite

end
-- ==== Proof.KState.lean ====
/-
  What one grid point of the attention kernel leaves in its output block, as a function of its three input blocks.

  The body resets a running-maximum column and a running accumulator, then goes through the keys and values in
  chunks of 512 rows: chunk j rewrites the maximum and the accumulator from their previous contents, the query block
  and rows 512 j … 512 j + 511 of the key and value arrays. The contents after n chunks are therefore the n-fold
  iteration of one step (`state`), and the block written at the end is a function of the contents after all chunks.
-/
import proofs.«429636_j11828339933196_3_alg».proof.Proof.Gen.KernelIdeal.Frame
import Idealize.ShloMosaic.Lib.Pipeline.Value

set_option maxRecDepth 16384

noncomputable section

namespace Cert.KernelIdeal.KState

open Cert.KernelIdeal Cert.KernelIdeal.Gen Idealize.ShloMosaic Idealize.ShloMosaic.TcCoe Idealize.ShloMosaic.Tactic
open Idealize.SL Idealize.SL.Sem

variable {F : FTy → Type} [FloatOps F]

/-- Rows 512 j … 512 j + 511 of an [8192, 128] array. -/
def chunk (X : Vec F S8192x128 .f32) (j : Fin k0_t1_loop.trips) : Vec F S512x128 .f32 :=
  View.ld X (Rect.unit (s := S8192x128) (k0_off1 j) S512x128.size (k0_off1_inb j))

/-- The running maximum and the running accumulator after n chunks. -/
def state (q : Vec F S2048x128 .f32) (Kx Vx : Vec F S8192x128 .f32) : ℕ → Vec F S2048x1 .f32 × Vec F S2048x256 .f32
  | 0 => (k0_pay1, k0_pay2)
  | n + 1 =>
    if h : n < k0_t1_loop.trips then
      (k0_pay6 q (chunk Kx ⟨n, h⟩) (state q Kx Vx n).1,
        k0_pay5 q (chunk Kx ⟨n, h⟩) (chunk Vx ⟨n, h⟩) (state q Kx Vx n).1 (state q Kx Vx n).2)
    else state q Kx Vx n

theorem state_zero (q : Vec F S2048x128 .f32) (Kx Vx : Vec F S8192x128 .f32) :
    state q Kx Vx 0 = (k0_pay1, k0_pay2) := rfl

theorem state_succ (q : Vec F S2048x128 .f32) (Kx Vx : Vec F S8192x128 .f32) (j : Fin k0_t1_loop.trips) :
    state q Kx Vx (j.val + 1)
      = (k0_pay6 q (chunk Kx j) (state q Kx Vx j.val).1,
          k0_pay5 q (chunk Kx j) (chunk Vx j) (state q Kx Vx j.val).1 (state q Kx Vx j.val).2) := by
  rw [state, dif_pos j.isLt]

theorem zero2 : (![0, 0] : Fin 2 → ℕ) = fun _ => 0 := by
  funext a; fin_cases a <;> rfl

section Pieces

variable (𝒱 : Variants) (c : Dev nD) (bd : Option 𝒱.V) (i : grid0.Coords)
  (arg1 : Memref sig .tc .vmem S2048x128 .f32) (harg1 : arg1.IsWhole)
  (arg2 : Memref sig .tc .vmem S8192x128 .f32) (harg2 : arg2.IsWhole)
  (arg3 : Memref sig .tc .vmem S8192x128 .f32) (harg3 : arg3.IsWhole)
  (arg4 : Memref sig .tc .vmem S2048x128 .f32) (harg4 : arg4.IsWhole)
  (arg5 : Memref sig .tc .vmem S2048x1 .f32) (harg5 : arg5.IsWhole)
  (arg6 : Memref sig .tc .vmem S2048x256 .f32) (harg6 : arg6.IsWhole)
  (v8 : Vec F S2048x128 .f32)
  (X_arg2 : BufTy.Contents (Elt F) arg2.view.ty) (X_arg3 : BufTy.Contents (Elt F) arg3.view.ty)

/-- The reset's store into the maximum column, and into the accumulator. -/
abbrev init5 : View.Piece (Elt F) S2048x1 .f32 := ⟨Rect.unit (s := S2048x1) ![0, 0] S2048x1.size inb_S2048x1_S2048x1_0_0, k0_pay1⟩
abbrev init6 : View.Piece (Elt F) S2048x256 .f32 := ⟨Rect.unit (s := S2048x256) ![0, 0] S2048x256.size inb_S2048x256_S2048x256_0_0, k0_pay2⟩

/-- One chunk's store into the maximum column: the step's new maximum, from the chunk's keys and the contents found. -/
theorem trip_fst (k : Fin k0_t1_loop.trips) (f5 : BufTy.Contents (Elt F) arg5.view.ty) (f6 : BufTy.Contents (Elt F) arg6.view.ty) :
    (trip_k0_t1 (F := F) 𝒱 c bd i arg1 harg1 arg2 harg2 arg3 harg3 arg4 harg4 arg5 harg5 arg6 harg6 v8 X_arg2 X_arg3 k).1 f5 f6
      = [⟨Rect.unit (s := S2048x1) ![0, 0] S2048x1.size inb_S2048x1_S2048x1_0_0,
          k0_pay6 v8 (chunk (arg2.view.read (Elt F) X_arg2) k)
            (View.ld (arg5.view.read (Elt F) f5) (Rect.unit (s := S2048x1) ![0, 0] S2048x1.size inb_S2048x1_S2048x1_0_0))⟩] := by
  unfold trip_k0_t1
  rfl

/-- One chunk's store into the accumulator. -/
theorem trip_snd (k : Fin k0_t1_loop.trips) (f5 : BufTy.Contents (Elt F) arg5.view.ty) (f6 : BufTy.Contents (Elt F) arg6.view.ty) :
    (trip_k0_t1 (F := F) 𝒱 c bd i arg1 harg1 arg2 harg2 arg3 harg3 arg4 harg4 arg5 harg5 arg6 harg6 v8 X_arg2 X_arg3 k).2.1 f5 f6
      = [⟨Rect.unit (s := S2048x256) ![0, 0] S2048x256.size inb_S2048x256_S2048x256_0_0,
          k0_pay5 v8 (chunk (arg2.view.read (Elt F) X_arg2) k) (chunk (arg3.view.read (Elt F) X_arg3) k)
            (View.ld (arg5.view.read (Elt F) f5) (Rect.unit (s := S2048x1) ![0, 0] S2048x1.size inb_S2048x1_S2048x1_0_0))
            (View.ld (arg6.view.read (Elt F) f6) (Rect.unit (s := S2048x256) ![0, 0] S2048x256.size inb_S2048x256_S2048x256_0_0))⟩] := by
  unfold trip_k0_t1
  rfl

/-- After n chunks, the stores so far (latest first, the reset last) leave the n-fold iterate of the step. -/
theorem canon_pb (n : ℕ) (hn : n ≤ k0_t1_loop.trips) :
    View.canon ((pb_k0_t1 (F := F) 𝒱 c bd i arg1 harg1 arg2 harg2 arg3 harg3 arg4 harg4 arg5 harg5 arg6 harg6 v8 X_arg2 X_arg3
          (arg5.view.writes (Elt F) arg5.view.junk [init5]) (arg6.view.writes (Elt F) arg6.view.junk [init6]) n).1 ++ [init5])
        = (state v8 (arg2.view.read (Elt F) X_arg2) (arg3.view.read (Elt F) X_arg3) n).1
    ∧ View.canon ((pb_k0_t1 (F := F) 𝒱 c bd i arg1 harg1 arg2 harg2 arg3 harg3 arg4 harg4 arg5 harg5 arg6 harg6 v8 X_arg2 X_arg3
          (arg5.view.writes (Elt F) arg5.view.junk [init5]) (arg6.view.writes (Elt F) arg6.view.junk [init6]) n).2 ++ [init6])
        = (state v8 (arg2.view.read (Elt F) X_arg2) (arg3.view.read (Elt F) X_arg3) n).2 := by
  induction n with
  | zero =>
    refine ⟨?_, ?_⟩
    · show View.canon [init5] = k0_pay1
      exact View.canon_unit_zero zero2 _ _
    · show View.canon [init6] = k0_pay2
      exact View.canon_unit_zero zero2 _ _
  | succ n ih =>
    obtain ⟨ih5, ih6⟩ := ih (Nat.le_of_succ_le hn)
    have hlt : n < k0_t1_loop.trips := hn
    have e5 : View.ld (arg5.view.read (Elt F) (arg5.view.writes (Elt F) (arg5.view.writes (Elt F) arg5.view.junk [init5])
          (pb_k0_t1 (F := F) 𝒱 c bd i arg1 harg1 arg2 harg2 arg3 harg3 arg4 harg4 arg5 harg5 arg6 harg6 v8 X_arg2 X_arg3
            (arg5.view.writes (Elt F) arg5.view.junk [init5]) (arg6.view.writes (Elt F) arg6.view.junk [init6]) n).1))
          (Rect.unit (s := S2048x1) ![0, 0] S2048x1.size inb_S2048x1_S2048x1_0_0)
        = (state v8 (arg2.view.read (Elt F) X_arg2) (arg3.view.read (Elt F) X_arg3) n).1 := by
      rw [← View.writes_append, View.read_writes_junk_eq_canon, View.ld_unit_zero zero2, ih5]
    have e6 : View.ld (arg6.view.read (Elt F) (arg6.view.writes (Elt F) (arg6.view.writes (Elt F) arg6.view.junk [init6])
          (pb_k0_t1 (F := F) 𝒱 c bd i arg1 harg1 arg2 harg2 arg3 harg3 arg4 harg4 arg5 harg5 arg6 harg6 v8 X_arg2 X_arg3
            (arg5.view.writes (Elt F) arg5.view.junk [init5]) (arg6.view.writes (Elt F) arg6.view.junk [init6]) n).2))
          (Rect.unit (s := S2048x256) ![0, 0] S2048x256.size inb_S2048x256_S2048x256_0_0)
        = (state v8 (arg2.view.read (Elt F) X_arg2) (arg3.view.read (Elt F) X_arg3) n).2 := by
      rw [← View.writes_append, View.read_writes_junk_eq_canon, View.ld_unit_zero zero2, ih6]
    have hs := pb_k0_t1_succ (F := F) 𝒱 c bd i arg1 harg1 arg2 harg2 arg3 harg3 arg4 harg4 arg5 harg5 arg6 harg6 v8 X_arg2 X_arg3
      (arg5.view.writes (Elt F) arg5.view.junk [init5]) (arg6.view.writes (Elt F) arg6.view.junk [init6]) ⟨n, hlt⟩
    have hst := state_succ v8 (arg2.view.read (Elt F) X_arg2) (arg3.view.read (Elt F) X_arg3) ⟨n, hlt⟩
    simp only [] at hs hst
    rw [hs, hst]
    dsimp only [tripL_k0_t1]
    rw [trip_fst, trip_snd, e5, e6]
    refine ⟨?_, ?_⟩
    · exact View.canon_cons_unit_zero zero2 _ _ _
    · exact View.canon_cons_unit_zero zero2 _ _ _

end Pieces

/-- The loop runs 16 chunks. -/
theorem trips_eq : k0_t1_loop.trips = 16 := by decide +kernel

/-- The denominator half (columns 128 … 255) and the weighted-sum half (columns 0 … 127) of an accumulator. -/
def denHalf (A : Vec F S2048x256 .f32) : Vec F S2048x128 .f32 :=
  View.ld A (Rect.unit (s := S2048x256) ![0, 128] S2048x128.size inb_S2048x256_S2048x128_0_128)
def numHalf (A : Vec F S2048x256 .f32) : Vec F S2048x128 .f32 :=
  View.ld A (Rect.unit (s := S2048x256) ![0, 0] S2048x128.size inb_S2048x256_S2048x128_0_0)

/-- What the body leaves in the output block: the final accumulator's weighted-sum half times the reciprocal of its
    denominator half, the accumulator being the iterate of the step over all chunks of the whole key and value arrays. -/
theorem out_eq (c : Dev nD) (i : grid0.Coords) (arg1 : Memref sig .tc .vmem S2048x128 .f32) (harg1 : arg1.IsWhole)
    (arg2 : Memref sig .tc .vmem S8192x128 .f32) (harg2 : arg2.IsWhole)
    (arg3 : Memref sig .tc .vmem S8192x128 .f32) (harg3 : arg3.IsWhole)
    (arg4 : Memref sig .tc .vmem S2048x128 .f32) (harg4 : arg4.IsWhole)
    (arg5 : Memref sig .tc .vmem S2048x1 .f32) (harg5 : arg5.IsWhole)
    (arg6 : Memref sig .tc .vmem S2048x256 .f32) (harg6 : arg6.IsWhole)
    (x0 : Vec F S2048x128 .f32) (x1 : Vec F S8192x128 .f32) (x2 : Vec F S8192x128 .f32) :
    out0_A_3 c i arg1 harg1 arg2 harg2 arg3 harg3 arg4 harg4 arg5 harg5 arg6 harg6 x0 x1 x2
      = k0_pay7 (denHalf (state x0 x1 x2 k0_t1_loop.trips).2) (numHalf (state x0 x1 x2 k0_t1_loop.trips).2) := by
  unfold out0_A_3
  rw [View.read_writes_junk_eq_canon]
  unfold kernelRun0_A
  dsimp only
  sl_unfold_words
  rw [View.canon_unit_zero zero2]
  have hv8 : View.readAt (Elt F) arg1.view (Rect.unit (s := S2048x128) ![0, 0] S2048x128.size inb_S2048x128_S2048x128_0_0).toLoadRect (harg1.unread x0) = x0 := by
    show View.ld (arg1.view.read (Elt F) (harg1.unread x0)) (Rect.unit (s := S2048x128) ![0, 0] S2048x128.size inb_S2048x128_S2048x128_0_0) = x0
    rw [harg1.read_unread, View.ld_unit_zero zero2]
  have hp := (canon_pb (F := F) Variants.none c none i arg1 harg1 arg2 harg2 arg3 harg3 arg4 harg4 arg5 harg5 arg6 harg6 x0
    (harg2.unread x1) (harg3.unread x2) k0_t1_loop.trips le_rfl).2
  rw [harg2.read_unread, harg3.read_unread] at hp
  rw [hv8, View.readAt_writes_junk_eq_canon, View.readAt_writes_junk_eq_canon]
  show k0_pay7 (fun j => View.canon _ _) (fun j => View.canon _ _) = _
  rw [hp]
  rfl

end Cert.KernelIdeal.KState

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.PayRead.lean ====
/-
  The kernel body's values, entry by entry, at the ideal values.
-/
import proofs.«429636_j11828339933196_3_alg».proof.Proof.Gen.KernelIdeal.Skeleton
import proofs.«429636_j11828339933196_3_alg».proof.Proof.LibPlainDot
import proofs.«429636_j11828339933196_3_alg».proof.Proof.LibDotT
import proofs.«429636_j11828339933196_3_alg».proof.Proof.LibColumn
import proofs.«429636_j11828339933196_3_alg».proof.Proof.LibRowRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayRead

open Cert.KernelIdeal Cert.KernelIdeal.Gen Idealize.ShloMosaic Idealize.ShloMosaic.ValueIdx

/-- The scale word. -/
abbrev cW : EReal := Ideal.ofBits .f32 0x3DB504F3#32

/-- The bf16 word of one, as an extended real. -/
private theorem word_one_bf16 : Ideal.ofBits .bf16 0x3F80#16 = 1 := by
  simp [Ideal.ofBits, Ideal.ieee, -EReal.coe_mul]; norm_num

/-- The running maximum starts at -∞ in every row. -/
theorem pay1_apply (r : Fin 2048) (u : Fin 1) : k0_pay1 (F := Ideal) (ix2 r u) = ⊥ := by
  unfold k0_pay1
  refine (congrFun (shapeCast_self _ _) _).trans ?_
  exact Cert.RowRead.word_neg_inf

/-- The accumulator starts at zero in every entry. -/
theorem pay2_apply (r : Fin 2048) (e : Fin 256) : k0_pay2 (F := Ideal) (ix2 r e) = 0 := by
  unfold k0_pay2
  refine (congrFun (shapeCast_self _ _) _).trans ?_
  exact Cert.RowRead.word_zero

/-- The scores: row r of the scaled q against row i of the key block, summed over the 128 features. -/
theorem pay3_apply (q : Vec Ideal S2048x128 .f32) (kb : Vec Ideal S512x128 .f32) (r : Fin 2048) (i : Fin 512) :
    k0_pay3 (F := Ideal) q kb (ix2 r i) = ∑ d : Fin 128, (q (ix2 r d) * cW) * kb (ix2 i d) := by
  unfold k0_pay3
  refine (DotT.matmul_zero_apply dot_S2048x128_S512x128_S2048x512_1_1_0_0_n_n rfl rfl rfl rfl rfl rfl rfl rfl none _ _ r i).trans ?_
  rfl

/-- The new running maximum of row r: the old one against the largest score of the row. -/
theorem pay4_apply (q : Vec Ideal S2048x128 .f32) (kb : Vec Ideal S512x128 .f32) (M : Vec Ideal S2048x1 .f32)
    (r : Fin 2048) (u : Fin 1) :
    k0_pay4 (F := Ideal) q kb M (ix2 r u)
      = max (M (ix2 r u)) ((Finset.univ : Finset (Fin 512)).fold max ⊥ fun i => k0_pay3 (F := Ideal) q kb (ix2 r i)) := by
  unfold k0_pay4
  refine congrArg (max (M (ix2 r u))) ?_
  refine (Column.shapeCast_a_a1_apply _ _ r u).trans ?_
  exact Cert.RowRead.rowMax_f32 _ _ _ _ r

/-- The stored running maximum is the new running maximum. -/
theorem pay6_apply (q : Vec Ideal S2048x128 .f32) (kb : Vec Ideal S512x128 .f32) (M : Vec Ideal S2048x1 .f32)
    (r : Fin 2048) (u : Fin 1) :
    k0_pay6 (F := Ideal) q kb M (ix2 r u) = k0_pay4 (F := Ideal) q kb M (ix2 r u) := by
  unfold k0_pay6
  exact congrFun (shapeCast_self _ _) _

/-- The new accumulator at (r, e): the old one rescaled by exp (old maximum - new maximum), plus the sum over the
    512 keys of exp (score - new maximum) against column e of the value block extended by 128 columns of ones. -/
theorem pay5_apply (q : Vec Ideal S2048x128 .f32) (kb vb : Vec Ideal S512x128 .f32) (M : Vec Ideal S2048x1 .f32)
    (A : Vec Ideal S2048x256 .f32) (r : Fin 2048) (e : Fin 256) :
    k0_pay5 (F := Ideal) q kb vb M A (ix2 r e)
      = Ideal.exp (M (ix2 r (0 : Fin 1)) - k0_pay4 (F := Ideal) q kb M (ix2 r (0 : Fin 1))) * A (ix2 r e)
        + ∑ i : Fin 512, Ideal.exp (k0_pay3 (F := Ideal) q kb (ix2 r i) - k0_pay4 (F := Ideal) q kb M (ix2 r (0 : Fin 1)))
            * (if h : e.val < 128 then vb (ix2 i (⟨e.val, h⟩ : Fin 128)) else 1) := by
  unfold k0_pay5
  refine (congrFun (shapeCast_self _ _) _).trans ?_
  refine congrArg₂ (· + ·) (congrArg (· * A (ix2 r e)) ?_) ?_
  · -- the rescaling column, broadcast over the 256 columns, read at row r
    exact Column.broadcastTo_a1_ab_apply _ _ r e
  · refine (PlainDot.matmul_zero_apply dot_S2048x512_S512x256_S2048x256_1_0_0_1_n_n rfl rfl rfl rfl rfl rfl rfl rfl none _ _ r e).trans ?_
    refine Finset.sum_congr rfl fun k _ => ?_
    refine congrArg₂ (· * ·) ?_ ?_
    · -- the maximum column, broadcast over the 512 keys, read at row r
      refine congrArg (fun t => Ideal.exp (k0_pay3 (F := Ideal) q kb (ix2 r k) - t)) ?_
      exact Column.broadcastTo_a1_ab_apply _ _ r k
    · -- column e of [values | ones]: a value column below 128, a one from 128 on
      by_cases h : e.val < 128
      · rw [dif_pos h]
        exact concatenate_pair_apply_left (t := S512x256) (s₁ := S512x128) (s₂ := S512x128) 1 _ _
          concatenates_S512x128_S512x128_S512x256_d1 (ix2 k e) rfl (ix2 k (⟨e.val, h⟩ : Fin 128))
          (fun b => by match b with | ⟨0, _⟩ => rfl | ⟨1, _⟩ => rfl)
      · rw [dif_neg h]
        refine (concatenate_pair_apply_right (t := S512x256) (s₁ := S512x128) (s₂ := S512x128) 1 _ _
          concatenates_S512x128_S512x128_S512x256_d1 (ix2 k e) rfl rfl
          (ix2 k (⟨e.val - 128, by have := e.isLt; omega⟩ : Fin 128))
          (fun b hb => by
            match b with
            | ⟨0, _⟩ => rfl
            | ⟨1, _⟩ => exact absurd rfl hb) ?_).trans ?_
        · show e.val - 128 + 128 = e.val
          omega
        · exact word_one_bf16

/-- The normalized output: the accumulated values times the reciprocal of the accumulated weights. -/
theorem pay7_apply (l a : Vec Ideal S2048x128 .f32) (r : Fin 2048) (d : Fin 128) :
    k0_pay7 (F := Ideal) l a (ix2 r d) = a (ix2 r d) * Ideal.div 1 (l (ix2 r d)) := by
  unfold k0_pay7
  show a (ix2 r d) * Ideal.div (Ideal.ofBits .f32 0x3F800000#32) (l (ix2 r d)) = _
  rw [Cert.RowRead.word_one]

end Cert.KernelIdeal.PayRead

end
-- ==== Proof.Spec.lean ====
/-
  Dense attention for one query row, written twice over the extended reals.

  A query row qr (128 numbers), the keys K (8192 rows of 128) and a value column Vc (8192 numbers); c is the
  scale. The plain form: the scores (qr · K k) · c, their maximum, the exponentials of the differences, their sum, the
  quotients, and the weighted sum of the value column. The streaming form: the keys in 16 chunks of 512, a running
  maximum and a running weighted sum rescaled by exp (old maximum - new maximum) at each chunk; the same recurrence run
  on the all-ones column gives the running denominator, and the result is the weighted sum times the denominator's
  reciprocal. Both are stated with the extended reals' own operations; that they agree on finite inputs is proved
  elsewhere.
-/
import Idealize.ShloMosaic.PureOps.Ideal

noncomputable section

namespace Cert.Attn

open Idealize.ShloMosaic

/-- The key position of place i of chunk j. -/
def kidx (j : ℕ) (i : Fin 512) : Fin 8192 := ⟨(512 * j + i.val) % 8192, Nat.mod_lt _ (by norm_num)⟩

variable (c : EReal) (qr : Fin 128 → EReal) (K : Fin 8192 → Fin 128 → EReal)

/-- The streaming form's score: the scale folded into the query. -/
def kerScore (k : Fin 8192) : EReal := ∑ d : Fin 128, (qr d * c) * K k d

/-- The plain form's score: the scale applied to the product. -/
def refScore (k : Fin 8192) : EReal := (∑ d : Fin 128, qr d * K k d) * c

/-- The running maximum after j chunks. -/
def kM : ℕ → EReal
  | 0 => ⊥
  | j + 1 => max (kM j) (Finset.univ.fold max ⊥ fun i : Fin 512 => kerScore c qr K (kidx j i))

/-- The running weighted sum of the column W after j chunks. -/
def kA (W : Fin 8192 → EReal) : ℕ → EReal
  | 0 => 0
  | j + 1 => Ideal.exp (kM c qr K j - kM c qr K (j + 1)) * kA W j
      + ∑ i : Fin 512, Ideal.exp (kerScore c qr K (kidx j i) - kM c qr K (j + 1)) * W (kidx j i)

/-- The streaming form's result: the weighted sum times the reciprocal of the weighted sum of ones. -/
def kerOut (Vc : Fin 8192 → EReal) : EReal := kA c qr K Vc 16 * Ideal.div 1 (kA c qr K (fun _ => 1) 16)

/-- The plain form: maximum, exponentials, their sum, quotients, weighted sum. -/
def refMax : EReal := max ⊥ (Finset.univ.fold max ⊥ fun k : Fin 8192 => refScore c qr K k)
def refE (k : Fin 8192) : EReal := Ideal.exp (refScore c qr K k - refMax c qr K)
def refL : EReal := 0 + ∑ k : Fin 8192, refE c qr K k
def refOut (Vc : Fin 8192 → EReal) : EReal := ∑ k : Fin 8192, Ideal.div (refE c qr K k) (refL c qr K) * Vc k

end Cert.Attn

end
-- ==== Proof.LibRectLoad.lean ====
/-
  A load through a unit-stride rectangle of a rank-2 array, read at a position.

  A rectangle with offsets (o₀, o₁) and unit strides places its own position (a, b) at the array's position
  (o₀ + a, o₁ + b). So a load through it, read at a position, is the array read at the shifted position. Stated with
  the target position given and two coordinate equations to check, at any extents and element type.
-/
import Idealize.ShloMosaic.Lib.Pipeline.Value
import Idealize.ShloMosaic.Lib.ValueIdx

noncomputable section

namespace Idealize.ShloMosaic.RectLoad

open Idealize.ShloMosaic Idealize.ShloMosaic.ValueIdx

/-- A load through a unit-stride rectangle of a rank-2 array, at a position of the rectangle: the array at the
    position shifted by the rectangle's offsets. -/
theorem ld_apply2 {Val : EltTy → Type} {el : EltTy} {R C : ℕ} (X : (⟨2, ![R, C]⟩ : Shape).Idx → Val el) (off size : Fin 2 → ℕ)
    (inb : ∀ a, off a + size a ≤ (⟨2, ![R, C]⟩ : Shape).size a) (x : (Rect.unit (s := ⟨2, ![R, C]⟩) off size inb).shape.Idx)
    (p : Fin R) (q : Fin C) (hp : p.val = off 0 + (x 0).val) (hq : q.val = off 1 + (x 1).val) :
    View.ld X (Rect.unit (s := ⟨2, ![R, C]⟩) off size inb) x = X (ix2 p q) := by
  show X ((Rect.unit (s := ⟨2, ![R, C]⟩) off size inb).idx x) = X (ix2 p q)
  refine congrArg X (funext fun a => Fin.ext ?_)
  match a with
  | ⟨0, _⟩ => show off 0 + 1 * (x 0).val = p.val; omega
  | ⟨1, _⟩ => show off 1 + 1 * (x 1).val = q.val; omega

end Idealize.ShloMosaic.RectLoad

end
-- ==== Proof.KValue.lean ====
/-
  The iterate of the kernel's step, read at a row: it is the streaming recurrence of attention for that row.

  Row r of the running maximum after n chunks is the streaming form's running maximum for the query row r; entry
  (r, e) of the accumulator is the running weighted sum of column e of the values extended by 128 columns of ones.
  So the block the body writes is, at (r, d), the streaming form's result for query row r and value column d.
-/
import proofs.«429636_j11828339933196_3_alg».proof.Proof.KState
import proofs.«429636_j11828339933196_3_alg».proof.Proof.PayRead
import proofs.«429636_j11828339933196_3_alg».proof.Proof.Spec
import proofs.«429636_j11828339933196_3_alg».proof.Proof.LibRectLoad
import Idealize.ShloMosaic.Lib.ValueIdx

noncomputable section

namespace Cert.KernelIdeal.KValue

open Cert.KernelIdeal Cert.KernelIdeal.Gen Idealize.ShloMosaic Idealize.ShloMosaic.ValueIdx
open Cert.Attn Cert.KernelIdeal.PayRead Cert.KernelIdeal.KState Idealize.ShloMosaic.RectLoad

/-- One chunk's step of the running maximum, spelt out. -/
theorem kM_succ (c : EReal) (qr : Fin 128 → EReal) (K : Fin 8192 → Fin 128 → EReal) (n : ℕ) :
    kM c qr K (n + 1) = max (kM c qr K n) (Finset.univ.fold max ⊥ fun i : Fin 512 => kerScore c qr K (kidx n i)) := rfl

/-- One chunk's step of the running weighted sum, spelt out. -/
theorem kA_succ (c : EReal) (qr : Fin 128 → EReal) (K : Fin 8192 → Fin 128 → EReal) (W : Fin 8192 → EReal) (n : ℕ) :
    kA c qr K W (n + 1) = Ideal.exp (kM c qr K n - kM c qr K (n + 1)) * kA c qr K W n
      + ∑ i : Fin 512, Ideal.exp (kerScore c qr K (kidx n i) - kM c qr K (n + 1)) * W (kidx n i) := rfl

/-- Place i of chunk j is key position 512 j + i. -/
theorem kidx_val (j : Fin k0_t1_loop.trips) (i : Fin 512) : (kidx j.val i).val = 512 * j.val + i.val := by
  have hj : j.val < 16 := trips_eq ▸ j.isLt
  have hi := i.isLt
  show (512 * j.val + i.val) % 8192 = _
  exact Nat.mod_eq_of_lt (by omega)

/-- Row i of chunk j of an array is its row at key position 512 j + i. -/
theorem chunk_apply (X : Vec Ideal S8192x128 .f32) (j : Fin k0_t1_loop.trips) (i : Fin 512) (d : Fin 128) :
    chunk X j (ix2 i d) = X (ix2 (kidx j.val i) d) := by
  have h0 : k0_off1 j 0 = 512 * j.val := congrFun (k0_off1_eq j) 0
  have h1 : k0_off1 j 1 = 0 := congrFun (k0_off1_eq j) 1
  unfold chunk
  refine ld_apply2 (R := 8192) (C := 128) X _ _ _ _ _ _ ?_ ?_
  · show (kidx j.val i).val = k0_off1 j 0 + i.val
    rw [kidx_val, h0]
  · show d.val = k0_off1 j 1 + d.val
    rw [h1]; omega

/-- Column e of the values extended by 128 columns of ones. -/
def wcol (Vx : Vec Ideal S8192x128 .f32) (e : Fin 256) : Fin 8192 → EReal :=
  fun k => if h : e.val < 128 then Vx (ix2 k (⟨e.val, h⟩ : Fin 128)) else 1

variable (q : Vec Ideal S2048x128 .f32) (Kx Vx : Vec Ideal S8192x128 .f32)

/-- The body's score of query row r against place i of chunk j. -/
theorem score_eq (j : Fin k0_t1_loop.trips) (r : Fin 2048) (i : Fin 512) :
    k0_pay3 (F := Ideal) q (chunk Kx j) (ix2 r i)
      = kerScore cW (fun d => q (ix2 r d)) (fun k d => Kx (ix2 k d)) (kidx j.val i) := by
  rw [pay3_apply]
  unfold kerScore
  refine Finset.sum_congr rfl fun d _ => ?_
  rw [chunk_apply]

/-- Row r of the state after n chunks. -/
theorem state_apply (r : Fin 2048) (n : ℕ) (hn : n ≤ k0_t1_loop.trips) :
    (state q Kx Vx n).1 (ix2 r (0 : Fin 1)) = kM cW (fun d => q (ix2 r d)) (fun k d => Kx (ix2 k d)) n
    ∧ ∀ e : Fin 256, (state q Kx Vx n).2 (ix2 r e)
        = kA cW (fun d => q (ix2 r d)) (fun k d => Kx (ix2 k d)) (wcol Vx e) n := by
  induction n with
  | zero =>
    refine ⟨?_, fun e => ?_⟩
    · rw [state_zero]; exact pay1_apply r 0
    · rw [state_zero]; exact pay2_apply r e
  | succ n ih =>
    obtain ⟨ihM, ihA⟩ := ih (Nat.le_of_succ_le hn)
    have hlt : n < k0_t1_loop.trips := hn
    have hst := state_succ q Kx Vx ⟨n, hlt⟩
    simp only [] at hst
    have hmax : k0_pay4 (F := Ideal) q (chunk Kx ⟨n, hlt⟩) (state q Kx Vx n).1 (ix2 r (0 : Fin 1))
        = kM cW (fun d => q (ix2 r d)) (fun k d => Kx (ix2 k d)) (n + 1) := by
      rw [pay4_apply, ihM, kM_succ]
      refine congrArg (max _) ?_
      refine congrArg (fun f => Finset.fold max ⊥ f (Finset.univ : Finset (Fin 512))) ?_
      funext i
      exact score_eq q Kx ⟨n, hlt⟩ r i
    rw [hst]
    refine ⟨?_, fun e => ?_⟩
    · show k0_pay6 (F := Ideal) q (chunk Kx ⟨n, hlt⟩) (state q Kx Vx n).1 (ix2 r (0 : Fin 1)) = _
      rw [pay6_apply, hmax]
    · show k0_pay5 (F := Ideal) q (chunk Kx ⟨n, hlt⟩) (chunk Vx ⟨n, hlt⟩) (state q Kx Vx n).1 (state q Kx Vx n).2 (ix2 r e) = _
      rw [pay5_apply, hmax, ihM, ihA e, kA_succ]
      refine congrArg (_ + ·) (Finset.sum_congr rfl fun i _ => ?_)
      have hw : (if h : e.val < 128 then chunk Vx ⟨n, hlt⟩ (ix2 i (⟨e.val, h⟩ : Fin 128)) else (1 : EReal))
          = wcol Vx e (kidx n i) := by
        unfold wcol
        by_cases h : e.val < 128
        · rw [dif_pos h, dif_pos h, chunk_apply]
        · rw [dif_neg h, dif_neg h]
      rw [score_eq q Kx ⟨n, hlt⟩ r i, hw]

/-- The block the body writes, at (r, d): the streaming form's result for query row r and value column d. -/
theorem out_apply (r : Fin 2048) (d : Fin 128) :
    k0_pay7 (F := Ideal) (denHalf (state q Kx Vx k0_t1_loop.trips).2) (numHalf (state q Kx Vx k0_t1_loop.trips).2) (ix2 r d)
      = kerOut cW (fun d' => q (ix2 r d')) (fun k d' => Kx (ix2 k d')) (fun k => Vx (ix2 k d)) := by
  obtain ⟨-, hA⟩ := state_apply q Kx Vx r k0_t1_loop.trips le_rfl
  have hd := d.isLt
  have hnum : numHalf (state q Kx Vx k0_t1_loop.trips).2 (ix2 r d)
      = (state q Kx Vx k0_t1_loop.trips).2 (ix2 r (⟨d.val, by omega⟩ : Fin 256)) := by
    unfold numHalf
    exact ld_apply2 (R := 2048) (C := 256) _ _ _ _ _ _ _ (by show r.val = 0 + r.val; omega) (by show d.val = 0 + d.val; omega)
  have hden : denHalf (state q Kx Vx k0_t1_loop.trips).2 (ix2 r d)
      = (state q Kx Vx k0_t1_loop.trips).2 (ix2 r (⟨128 + d.val, by omega⟩ : Fin 256)) := by
    unfold denHalf
    exact ld_apply2 (R := 2048) (C := 256) _ _ _ _ _ _ _ (by show r.val = 0 + r.val; omega) (by show 128 + d.val = 128 + d.val; rfl)
  rw [pay7_apply, hnum, hden, hA, hA]
  unfold kerOut
  rw [← trips_eq]
  have w1 : wcol Vx (⟨d.val, by omega⟩ : Fin 256) = fun k => Vx (ix2 k d) := by
    funext k; unfold wcol; rw [dif_pos (show d.val < 128 from hd)]
  have w2 : wcol Vx (⟨128 + d.val, by omega⟩ : Fin 256) = fun _ => 1 := by
    funext k; unfold wcol; rw [dif_neg (show ¬ (128 + d.val < 128) by omega)]
  rw [w1, w2]

end Cert.KernelIdeal.KValue

end
-- ==== Proof.KFinal.lean ====
/-
  The kernel's result array, whole: every entry is the streaming form of attention for its row and column.

  Grid point t works on query rows 2048 t … 2048 t + 2047 and on the whole key and value arrays, and writes back rows
  2048 t … 2048 t + 2047 of the result. Entry (r, d) of the block it writes is the streaming form's result for the
  block's query row r and value column d; the four blocks tile the array.
-/
import proofs.«429636_j11828339933196_3_alg».proof.Proof.Gen.KernelIdeal.Value
import proofs.«429636_j11828339933196_3_alg».proof.Proof.KValue
import Idealize.ShloMosaic.Lib.Pipeline.Value

set_option maxRecDepth 16384

noncomputable section

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)
open Cert.Attn Cert.KernelIdeal.PayRead Cert.KernelIdeal.KState Cert.KernelIdeal.KValue

variable (m : (ℓ : Loc nD τ sig) → Buf (Elt Ideal) ℓ) (ρ : Dev nD → PrngReg)

/-- The result as one function of the query, key and value arrays: at (R, d) the streaming form for query row R and
    value column d. -/
def attn (Q K V : S8192x128.Idx → EReal) : S8192x128.Idx → EReal := fun y =>
  kerOut cW (fun d' => Q (ix2 (⟨(y 0).val, (y 0).isLt⟩ : Fin 8192) d')) (fun k d' => K (ix2 k d'))
    (fun k => V (ix2 k (⟨(y 1).val, (y 1).isLt⟩ : Fin 128)))

/-- The printed index maps over the four grid points: the query and result windows move together along the rows,
    the key and value windows stay at the whole array. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 3 :=
  (by decide +kernel : ∀ t : Fin grid0.N, _)

/-- Every block of rows is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- What point t writes back is block t of `attn` of the arrays as the region finds them. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Cert.KernelIdeal.Value.flushed3]
  unfold outsAt0
  rw [KState.out_eq]
  obtain ⟨e0, e1, e2, e3, e4, e5, e6, e7⟩ := idx_facts t
  funext j
  obtain ⟨r, d, rfl⟩ : ∃ (r : Fin 2048) (d : Fin 128), j = ix2 r d := ⟨j 0, j 1, eq_ix2 j⟩
  show k0_pay7 (F := Ideal) (denHalf (state (iblk m c 0 t) (iblk m c 1 t) (iblk m c 2 t) k0_t1_loop.trips).2)
      (numHalf (state (iblk m c 0 t) (iblk m c 1 t) (iblk m c 2 t) k0_t1_loop.trips).2) (ix2 r d)
    = attn (V m c main_arg0) (V m c main_arg1) (V m c main_arg2) (((cfg0.win 3).blk t).view.emb (ix2 r d))
  refine (KValue.out_apply (iblk m c 0 t) (iblk m c 1 t) (iblk m c 2 t) r d).trans ?_
  unfold attn
  have q1 : (fun d' : Fin 128 => iblk m c 0 t (ix2 r d'))
      = fun d' : Fin 128 => V m c main_arg0 (ix2 (⟨((((cfg0.win 3).blk t).view.emb (ix2 r d)) 0).val, ((((cfg0.win 3).blk t).view.emb (ix2 r d)) 0).isLt⟩ : Fin 8192) d') := by
    funext d'
    show V m c main_arg0 (((cfg0.win 0).blk t).view.emb (ix2 r d')) = _
    refine congrArg (V m c main_arg0) (funext fun a => Fin.ext ?_)
    match a with
    | ⟨0, _⟩ => show win0_0.index t (0 : Fin 2) * 2048 + 1 * r.val = win0_3.index t (0 : Fin 2) * 2048 + 1 * r.val; omega
    | ⟨1, _⟩ => show win0_0.index t (1 : Fin 2) * 128 + 1 * d'.val = d'.val; omega
  have q2 : (fun (k : Fin 8192) (d' : Fin 128) => iblk m c 1 t (ix2 k d'))
      = fun (k : Fin 8192) (d' : Fin 128) => V m c main_arg1 (ix2 k d') := by
    funext k d'
    show V m c main_arg1 (((cfg0.win 1).blk t).view.emb (ix2 k d')) = _
    refine congrArg (V m c main_arg1) (funext fun a => Fin.ext ?_)
    match a with
    | ⟨0, _⟩ => show win0_1.index t (0 : Fin 2) * 8192 + 1 * k.val = k.val; omega
    | ⟨1, _⟩ => show win0_1.index t (1 : Fin 2) * 128 + 1 * d'.val = d'.val; omega
  have q3 : (fun k : Fin 8192 => iblk m c 2 t (ix2 k d))
      = fun k : Fin 8192 => V m c main_arg2 (ix2 k (⟨((((cfg0.win 3).blk t).view.emb (ix2 r d)) 1).val, ((((cfg0.win 3).blk t).view.emb (ix2 r d)) 1).isLt⟩ : Fin 128)) := by
    funext k
    show V m c main_arg2 (((cfg0.win 2).blk t).view.emb (ix2 k d)) = _
    refine congrArg (V m c main_arg2) (funext fun a => Fin.ext ?_)
    match a with
    | ⟨0, _⟩ => show win0_2.index t (0 : Fin 2) * 8192 + 1 * k.val = k.val; omega
    | ⟨1, _⟩ => show win0_2.index t (1 : Fin 2) * 128 + 1 * d.val = win0_3.index t (1 : Fin 2) * 128 + 1 * d.val; omega
  rw [q1, q2, q3]

/-- An index of the array is in point t's block iff each coordinate is in the block's range on its axis. -/
theorem mem_blk (t : Fin cfg0.N) (i : S8192x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v0).slice (win0_3.rect t)).set ↔ _
  rw [View.set_slice_whole, Rect.mem_set_unit]
  exact Iff.rfl

/-- The four blocks of rows tile the array: row R is in the block of point R / 2048. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := idx_onto ⟨(i 0).val / 2048, by omega⟩
  have p0 : win0_3.index t (0 : Fin 2) = (i 0).val / 2048 := congrFun ht 0
  have p1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The result array after the run. -/
theorem final (c : Dev nD) : (dats m 0 c).arrAt 3 cfg0.N
    = attn (m ((c : Thread nD τ).loc main_arg0)) (m ((c : Thread nD τ).loc main_arg1)) (m ((c : Thread nD τ).loc main_arg2)) :=
  (dats m 0 c).arrAt_eq_of_cover 3 (attn (V m c main_arg0) (V m c main_arg1) (V m c main_arg2))
    (fun t _ => flushed_eq m c t) cover

/-- The run with the result array named. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KFinal

end
-- ==== Proof.RefRead.lean ====
/-
  The reference's result, entry by entry, is the plain form of attention.
-/
import proofs.«429636_j11828339933196_3_alg».proof.Proof.Gen.ReferenceIdeal.Read
import proofs.«429636_j11828339933196_3_alg».proof.Proof.Spec
import proofs.«429636_j11828339933196_3_alg».proof.Proof.LibRowRead
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The scaled score of query row R against key k: the product summed over the 128 features, times the scale. -/
private theorem score_apply (x0 x1 : (⟨S8192x128, .f32⟩ : BufTy).Contents (Elt Ideal)) (R k : Fin 8192) :
    val_main_v2 (F := Ideal) x0 x1 (ix2 R k)
      = Cert.Attn.refScore (Ideal.ofBits .f32 0x3DB504F3#32) (fun d' : Fin 128 => x0 (ix2 R d'))
          (fun (k : Fin 8192) (d' : Fin 128) => x1 (ix2 k d')) k := by
  rw [val_main_v2_apply, val_main_v0_apply, val_main_v1_apply, val_main_cst_apply]
  unfold Cert.Attn.refScore
  rw [Ideal.mulf_def, Ideal.ofBits_def]
  refine congrArg (· * _) (Finset.sum_congr rfl fun d' _ => ?_)
  have e1 : lidx_main_v0 (ix2 R k) d' = ix2 R d' :=
    funext fun a => Fin.ext (by match a with | ⟨0, _⟩ => rfl | ⟨1, _⟩ => rfl)
  have e2 : ridx_main_v0 (ix2 R k) d' = ix2 k d' :=
    funext fun a => Fin.ext (by match a with | ⟨0, _⟩ => rfl | ⟨1, _⟩ => rfl)
  rw [e1, e2]

/-- The maximum of row R's scores, joined once more with the bottom element. -/
private theorem max_apply (x0 x1 : (⟨S8192x128, .f32⟩ : BufTy).Contents (Elt Ideal)) (R : Fin 8192) :
    val_main_v5 (F := Ideal) x0 x1 (ix1 R)
      = Cert.Attn.refMax (Ideal.ofBits .f32 0x3DB504F3#32) (fun d' : Fin 128 => x0 (ix2 R d'))
          (fun (k : Fin 8192) (d' : Fin 128) => x1 (ix2 k d')) := by
  rw [val_main_v5_apply, val_main_v4_apply, val_main_cst_1_apply]
  unfold val_main_v3
  rw [Cert.RowRead.hostRowMax_apply (val_main_v2 (F := Ideal) x0 x1) (val_main_cst_0 (F := Ideal))
    reducesTo_S8192x8192_S8192_d1 (by decide) h_S_ R]
  rw [val_main_cst_0_apply]
  unfold Cert.Attn.refMax
  rw [Ideal.maximumf_def, Ideal.ofBits_def, Cert.RowRead.word_neg_inf]
  refine congrArg (max ⊥ ·) ?_
  exact congrArg (fun f => Finset.fold max ⊥ f (Finset.univ : Finset (Fin 8192)))
    (funext fun k => score_apply x0 x1 R k)

/-- The exponential of a score less the row's maximum. -/
private theorem exp_apply (x0 x1 : (⟨S8192x128, .f32⟩ : BufTy).Contents (Elt Ideal)) (R k : Fin 8192) :
    val_main_v9 (F := Ideal) x0 x1 (ix2 R k)
      = Cert.Attn.refE (Ideal.ofBits .f32 0x3DB504F3#32) (fun d' : Fin 128 => x0 (ix2 R d'))
          (fun (k : Fin 8192) (d' : Fin 128) => x1 (ix2 k d')) k := by
  rw [val_main_v9_apply, val_main_v8_apply, val_main_v7_apply, val_main_v6_apply]
  have e : idx_main_v6 (idx_main_v7 (ix2 R k)) = ix1 R :=
    funext fun a => Fin.ext (by match a with | ⟨0, _⟩ => rfl)
  rw [e, max_apply, score_apply]
  unfold Cert.Attn.refE
  rw [Ideal.hostUnary_exp_def, Ideal.subf_def]

/-- The sum of row R's exponentials, from zero. -/
private theorem sum_apply (x0 x1 : (⟨S8192x128, .f32⟩ : BufTy).Contents (Elt Ideal)) (R : Fin 8192) :
    val_main_v10 (F := Ideal) x0 x1 (ix1 R)
      = Cert.Attn.refL (Ideal.ofBits .f32 0x3DB504F3#32) (fun d' : Fin 128 => x0 (ix2 R d'))
          (fun (k : Fin 8192) (d' : Fin 128) => x1 (ix2 k d')) := by
  rw [val_main_v10_apply, val_main_cst_2_apply]
  unfold Cert.Attn.refL
  rw [Ideal.ofBits_def, Cert.RowRead.word_zero]
  refine congrArg (0 + ·) (Finset.sum_congr rfl fun k _ => ?_)
  have e : idx_main_v10 (ix1 R) k = ix2 R k :=
    funext fun a => Fin.ext (by match a with | ⟨0, _⟩ => rfl | ⟨1, _⟩ => rfl)
  rw [e, exp_apply]

/-- The quotient of an exponential by the row's sum. -/
private theorem quot_apply (x0 x1 : (⟨S8192x128, .f32⟩ : BufTy).Contents (Elt Ideal)) (R k : Fin 8192) :
    val_main_v13 (F := Ideal) x0 x1 (ix2 R k)
      = Ideal.div
          (Cert.Attn.refE (Ideal.ofBits .f32 0x3DB504F3#32) (fun d' : Fin 128 => x0 (ix2 R d'))
            (fun (k : Fin 8192) (d' : Fin 128) => x1 (ix2 k d')) k)
          (Cert.Attn.refL (Ideal.ofBits .f32 0x3DB504F3#32) (fun d' : Fin 128 => x0 (ix2 R d'))
            (fun (k : Fin 8192) (d' : Fin 128) => x1 (ix2 k d'))) := by
  rw [val_main_v13_apply, val_main_v12_apply, val_main_v11_apply]
  have e : idx_main_v11 (idx_main_v12 (ix2 R k)) = ix1 R :=
    funext fun a => Fin.ext (by match a with | ⟨0, _⟩ => rfl)
  rw [e, sum_apply, exp_apply, Ideal.hostDivf_def]

theorem ref_apply (x0 x1 x2 : (⟨S8192x128, .f32⟩ : BufTy).Contents (Elt Ideal)) (R : Fin 8192) (d : Fin 128) :
    val_main_v14 (F := Ideal) x0 x1 x2 (ix2 R d)
      = Cert.Attn.refOut (Ideal.ofBits .f32 0x3DB504F3#32) (fun d' : Fin 128 => x0 (ix2 R d'))
          (fun (k : Fin 8192) (d' : Fin 128) => x1 (ix2 k d')) (fun k : Fin 8192 => x2 (ix2 k d)) := by
  rw [val_main_v14_apply]
  unfold Cert.Attn.refOut
  refine Finset.sum_congr rfl fun k _ => ?_
  have e1 : lidx_main_v14 (ix2 R d) k = ix2 R k :=
    funext fun a => Fin.ext (by match a with | ⟨0, _⟩ => rfl | ⟨1, _⟩ => rfl)
  have e2 : ridx_main_v14 (ix2 R d) k = ix2 k d :=
    funext fun a => Fin.ext (by match a with | ⟨0, _⟩ => rfl | ⟨1, _⟩ => rfl)
  rw [e1, e2, quot_apply]

end Cert.ReferenceIdeal.RefValue

end
-- ==== Proof.Stream.lean ====
/-
  The streaming form of attention agrees with the plain form on finite inputs.

  On finite inputs every score is a real number S k, every running maximum after the first chunk is a real number,
  and the running weighted sum after j chunks is exp (-m) times the sum of exp (S k) * w k over the keys seen so far,
  m being the running maximum. After the last chunk the factor exp (-m) cancels between the weighted sum and the
  denominator; in the plain form the factor exp (-M) cancels the same way. Both sides are the quotient of
  the sum of exp (S k) * v k by the sum of exp (S k).
-/
import proofs.«429636_j11828339933196_3_alg».proof.Proof.Spec
import Mathlib.Analysis.SpecialFunctions.Exp
import Mathlib.Algebra.BigOperators.Fin
import Mathlib.Data.EReal.Operations
import Mathlib.Data.Finset.Fold

noncomputable section

namespace Cert.Attn

open Idealize.ShloMosaic

/-! ### Coercions of reals -/

/-- A finite sum of coerced reals is the coerced sum. -/
private theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The maximum of two coerced reals is the coerced maximum. -/
private theorem max_coe (a b : ℝ) : max (a : EReal) (b : EReal) = ((max a b : ℝ) : EReal) :=
  (EReal.coe_strictMono.monotone.map_max).symm

/-- A fold of max from ⊥ over coerced reals is ⊥ or a coerced real. -/
private theorem fold_max_coe {ι : Type*} (s : Finset ι) (g : ι → ℝ) :
    s.fold max (⊥ : EReal) (fun i => ((g i : ℝ) : EReal)) = ⊥ ∨
      ∃ μ : ℝ, s.fold max (⊥ : EReal) (fun i => ((g i : ℝ) : EReal)) = (μ : EReal) := by
  classical
  refine Finset.induction_on s (Or.inl Finset.fold_empty) ?_
  intro a s ha ih
  right
  rw [Finset.fold_insert ha]
  rcases ih with h | ⟨μ, h⟩
  · exact ⟨g a, by rw [h, max_bot_right]⟩
  · exact ⟨max (g a) μ, by rw [h, max_coe]⟩

/-- Over a nonempty set it is a coerced real: it is at least one of the entries. -/
private theorem fold_max_real {ι : Type*} (s : Finset ι) (hs : s.Nonempty) (g : ι → ℝ) :
    ∃ μ : ℝ, s.fold max (⊥ : EReal) (fun i => ((g i : ℝ) : EReal)) = (μ : EReal) := by
  rcases fold_max_coe s g with h | h
  · obtain ⟨i, hi⟩ := hs
    have hle : ((g i : ℝ) : EReal) ≤ s.fold max (⊥ : EReal) (fun i => ((g i : ℝ) : EReal)) :=
      (Finset.le_fold_max _).mpr (Or.inr ⟨i, hi, le_rfl⟩)
    rw [h] at hle
    exact absurd (le_bot_iff.mp hle) (EReal.coe_ne_bot _)
  · exact h

/-! ### One step of the running sum, in reals -/

/-- The first chunk: the carried term is zero. -/
private theorem step_first {ι : Type*} [Fintype ι] (X : EReal) (b : ℝ) (s w : ι → ℝ) :
    X * 0 + ∑ i, Ideal.exp ((s i : EReal) - (b : EReal)) * (w i : EReal)
      = ((Real.exp (-b) * ∑ i, Real.exp (s i) * w i : ℝ) : EReal) := by
  rw [mul_zero, zero_add]
  simp only [← EReal.coe_sub, Ideal.exp_coe, ← EReal.coe_mul, coe_sum]
  congr 1
  rw [Finset.mul_sum]
  refine Finset.sum_congr rfl fun i _ => ?_
  rw [sub_eq_neg_add, Real.exp_add, mul_assoc]

/-- A later chunk: exp (a - b) * exp (-a) = exp (-b). -/
private theorem step_next {ι : Type*} [Fintype ι] (a b P : ℝ) (s w : ι → ℝ) :
    Ideal.exp ((a : EReal) - (b : EReal)) * ((Real.exp (-a) * P : ℝ) : EReal)
        + ∑ i, Ideal.exp ((s i : EReal) - (b : EReal)) * (w i : EReal)
      = ((Real.exp (-b) * (P + ∑ i, Real.exp (s i) * w i) : ℝ) : EReal) := by
  simp only [← EReal.coe_sub, Ideal.exp_coe, ← EReal.coe_mul, coe_sum, ← EReal.coe_add]
  congr 1
  rw [mul_add, Finset.mul_sum, ← mul_assoc, ← Real.exp_add]
  congr 1
  · congr 2
    ring
  · refine Finset.sum_congr rfl fun i _ => ?_
    rw [sub_eq_neg_add, Real.exp_add, mul_assoc]

/-- Softmax does not depend on the shift. -/
private theorem softmax_shift {ι : Type*} [Fintype ι] [Nonempty ι] (S v : ι → ℝ) (μ M : ℝ) :
    Real.exp (-μ) * (∑ k, Real.exp (S k) * v k) * (1 / (Real.exp (-μ) * ∑ k, Real.exp (S k) * 1))
      = ∑ k, Real.exp (S k - M) * (1 / ∑ k', Real.exp (S k' - M)) * v k := by
  have hE : (∑ k, Real.exp (S k)) ≠ 0 :=
    (Finset.sum_pos (fun k _ => Real.exp_pos (S k)) Finset.univ_nonempty).ne'
  have hμ : Real.exp (-μ) ≠ 0 := (Real.exp_pos (-μ)).ne'
  have hM : Real.exp M ≠ 0 := (Real.exp_pos M).ne'
  have hterm : ∀ k, Real.exp (S k - M) * (1 / ∑ k', Real.exp (S k' - M)) * v k
      = (Real.exp (S k) * v k) / ∑ k', Real.exp (S k') := by
    intro k
    simp only [Real.exp_sub, ← Finset.sum_div]
    field_simp
  simp only [hterm, ← Finset.sum_div, mul_one]
  field_simp

/-! ### The recurrences -/

section
variable (c : EReal) (qr : Fin 128 → EReal) (K : Fin 8192 → Fin 128 → EReal)

private theorem kM_zero : kM c qr K 0 = ⊥ := rfl
private theorem kM_succ (j : ℕ) :
    kM c qr K (j + 1)
      = max (kM c qr K j) (Finset.univ.fold max ⊥ fun i : Fin 512 => kerScore c qr K (kidx j i)) := rfl
private theorem kA_zero (W : Fin 8192 → EReal) : kA c qr K W 0 = 0 := rfl
private theorem kA_succ (W : Fin 8192 → EReal) (j : ℕ) :
    kA c qr K W (j + 1)
      = Ideal.exp (kM c qr K j - kM c qr K (j + 1)) * kA c qr K W j
        + ∑ i : Fin 512, Ideal.exp (kerScore c qr K (kidx j i) - kM c qr K (j + 1)) * W (kidx j i) := rfl

/-- After at least one chunk the running maximum is a real. -/
private theorem kM_real (S : Fin 8192 → ℝ) (hS : ∀ k, kerScore c qr K k = (S k : EReal)) :
    ∀ j : ℕ, ∃ μ : ℝ, kM c qr K (j + 1) = (μ : EReal) := by
  intro j
  induction j with
  | zero =>
    obtain ⟨ν, hν⟩ :=
      fold_max_real (Finset.univ : Finset (Fin 512)) Finset.univ_nonempty (fun i => S (kidx 0 i))
    refine ⟨ν, ?_⟩
    rw [kM_succ, kM_zero]
    simp only [hS]
    rw [hν, max_bot_left]
  | succ j ih =>
    obtain ⟨μ, hμ⟩ := ih
    obtain ⟨ν, hν⟩ :=
      fold_max_real (Finset.univ : Finset (Fin 512)) Finset.univ_nonempty (fun i => S (kidx (j + 1) i))
    refine ⟨max μ ν, ?_⟩
    rw [kM_succ, hμ]
    simp only [hS]
    rw [hν, max_coe]

/-- The invariant: after j + 1 chunks the running sum is exp (-m) times the sum over the keys seen so far. -/
private theorem kA_real (S : Fin 8192 → ℝ) (hS : ∀ k, kerScore c qr K k = (S k : EReal))
    (m : ℕ → ℝ) (hm : ∀ j, kM c qr K (j + 1) = (m j : EReal))
    (W : Fin 8192 → EReal) (w : Fin 8192 → ℝ) (hW : ∀ k, W k = (w k : EReal)) :
    ∀ j : ℕ, kA c qr K W (j + 1)
      = ((Real.exp (-(m j)) * ∑ j' ∈ Finset.range (j + 1), ∑ i : Fin 512,
            Real.exp (S (kidx j' i)) * w (kidx j' i) : ℝ) : EReal) := by
  intro j
  induction j with
  | zero =>
    rw [kA_succ, kA_zero, hm]
    simp only [hS, hW]
    rw [step_first, Finset.sum_range_succ, Finset.sum_range_zero, zero_add]
  | succ j ih =>
    rw [kA_succ, ih, hm, hm]
    simp only [hS, hW]
    rw [step_next, ← Finset.sum_range_succ]

end

/-! ### The sixteen chunks cover the keys once -/

private def chunkEquiv : Fin 16 × Fin 512 ≃ Fin 8192 where
  toFun p := ⟨512 * p.1.val + p.2.val, by have := p.1.isLt; have := p.2.isLt; omega⟩
  invFun k := (⟨k.val / 512, by have := k.isLt; omega⟩, ⟨k.val % 512, Nat.mod_lt _ (by norm_num)⟩)
  left_inv p := by
    have := p.1.isLt
    have := p.2.isLt
    ext
    · simp only []
      omega
    · simp only []
      omega
  right_inv k := by
    ext
    simp only []
    omega

private theorem sum_chunks (F : Fin 8192 → ℝ) :
    ∑ j' ∈ Finset.range 16, ∑ i : Fin 512, F (kidx j' i) = ∑ k, F k := by
  rw [Finset.sum_range (fun j' => ∑ i : Fin 512, F (kidx j' i)),
    ← Fintype.sum_prod_type' (fun (a : Fin 16) (b : Fin 512) => F (kidx a b))]
  refine Fintype.sum_equiv chunkEquiv _ _ fun p => ?_
  congr 1
  ext
  have := p.1.isLt
  have := p.2.isLt
  simp only [kidx, chunkEquiv, Equiv.coe_fn_mk]
  omega

/-! ### The two forms agree -/

private theorem kerOut_eq_refOut_real (c : EReal) (qr : Fin 128 → EReal) (K : Fin 8192 → Fin 128 → EReal)
    (Vc : Fin 8192 → EReal) (S v : Fin 8192 → ℝ)
    (hker : ∀ k, kerScore c qr K k = (S k : EReal)) (href : ∀ k, refScore c qr K k = (S k : EReal))
    (hv : ∀ k, Vc k = (v k : EReal)) :
    kerOut c qr K Vc = refOut c qr K Vc := by
  choose m hm using kM_real c qr K S hker
  obtain ⟨M, hM⟩ : ∃ M : ℝ, refMax c qr K = (M : EReal) := by
    obtain ⟨ν, hν⟩ := fold_max_real (Finset.univ : Finset (Fin 8192)) Finset.univ_nonempty S
    refine ⟨ν, ?_⟩
    rw [refMax]
    simp only [href]
    rw [hν, max_bot_left]
  have hN : kA c qr K Vc 16 = ((Real.exp (-(m 15)) * ∑ k, Real.exp (S k) * v k : ℝ) : EReal) := by
    rw [← sum_chunks (fun k => Real.exp (S k) * v k)]
    exact kA_real c qr K S hker m hm Vc v hv 15
  have hD : kA c qr K (fun _ => 1) 16 = ((Real.exp (-(m 15)) * ∑ k, Real.exp (S k) * 1 : ℝ) : EReal) := by
    rw [← sum_chunks (fun k => Real.exp (S k) * 1)]
    exact kA_real c qr K S hker m hm (fun _ => 1) (fun _ => 1) (fun _ => EReal.coe_one.symm) 15
  have hD0 : Real.exp (-(m 15)) * ∑ k, Real.exp (S k) * 1 ≠ 0 := by
    simp only [mul_one]
    exact (mul_pos (Real.exp_pos _)
      (Finset.sum_pos (fun k _ => Real.exp_pos (S k)) Finset.univ_nonempty)).ne'
  have hL : refL c qr K = ((∑ k, Real.exp (S k - M) : ℝ) : EReal) := by
    rw [refL, zero_add]
    simp only [refE, href, hM, ← EReal.coe_sub, Ideal.exp_coe, coe_sum]
  have hL0 : (∑ k, Real.exp (S k - M)) ≠ 0 :=
    (Finset.sum_pos (fun k _ => Real.exp_pos (S k - M)) Finset.univ_nonempty).ne'
  rw [kerOut, hN, hD, Ideal.div_coe hD0, one_mul, ← EReal.coe_mul, refOut, hL]
  simp only [Ideal.div_coe hL0, refE, href, hM, hv, ← EReal.coe_sub, Ideal.exp_coe, ← EReal.coe_mul, coe_sum]
  congr 1
  exact softmax_shift S v (m 15) M

theorem kerOut_eq_refOut (c : EReal) (qr : Fin 128 → EReal) (K : Fin 8192 → Fin 128 → EReal) (Vc : Fin 8192 → EReal)
    (hc : ∃ x : ℝ, c = (x : EReal)) (hq : ∀ d, ∃ x : ℝ, qr d = (x : EReal))
    (hK : ∀ k d, ∃ x : ℝ, K k d = (x : EReal)) (hV : ∀ k, ∃ x : ℝ, Vc k = (x : EReal)) :
    kerOut c qr K Vc = refOut c qr K Vc := by
  obtain ⟨x, rfl⟩ := hc
  choose q hq using hq
  choose Kr hKr using hK
  choose v hv using hV
  refine kerOut_eq_refOut_real _ qr K Vc (fun k => ∑ d, q d * x * Kr k d) v ?_ ?_ hv
  · intro k
    simp only [kerScore, hq, hKr, ← EReal.coe_mul, coe_sum]
  · intro k
    simp only [refScore, hq, hKr, ← EReal.coe_mul, coe_sum]
    congr 1
    rw [Finset.sum_mul]
    exact Finset.sum_congr rfl fun d _ => by ring

end Cert.Attn

end
-- ==== Proof.Bridge.lean ====
/-
  The reference's result array is the kernel's: entry by entry, the plain form of attention equals the streaming form
  on finite inputs.
-/
import proofs.«429636_j11828339933196_3_alg».proof.Proof.KFinal
import proofs.«429636_j11828339933196_3_alg».proof.Proof.RefRead
import proofs.«429636_j11828339933196_3_alg».proof.Proof.Stream

noncomputable section

namespace Cert.Bridge

open Idealize.ShloMosaic Idealize.ShloMosaic.ValueIdx Cert.Attn

/-- The scale word denotes a real number. -/
theorem scale_real : ∃ x : ℝ, (Ideal.ofBits .f32 0x3DB504F3#32 : EReal) = (x : EReal) := by
  simp only [Ideal.ofBits, Ideal.ieee]
  norm_num
  exact ⟨_, rfl⟩

/-- On arrays of real entries, the reference's result is the kernel's result function. -/
theorem ref_eq_attn (x0 x1 x2 : Cert.KernelIdeal.S8192x128.Idx → EReal)
    (f0 : ∀ i, ∃ x : ℝ, x0 i = (x : EReal)) (f1 : ∀ i, ∃ x : ℝ, x1 i = (x : EReal)) (f2 : ∀ i, ∃ x : ℝ, x2 i = (x : EReal)) :
    Cert.ReferenceIdeal.Read.val_main_v14 (F := Ideal) x0 x1 x2 = Cert.KernelIdeal.KFinal.attn x0 x1 x2 := by
  funext y
  obtain ⟨R, d, rfl⟩ : ∃ (R : Fin 8192) (d : Fin 128), y = ix2 R d := ⟨y 0, y 1, eq_ix2 y⟩
  rw [Cert.ReferenceIdeal.RefValue.ref_apply]
  unfold Cert.KernelIdeal.KFinal.attn
  exact (kerOut_eq_refOut _ _ _ _ scale_real (fun d' => f0 _) (fun k d' => f1 _) (fun k => f2 _)).symm

end Cert.Bridge

end
-- ==== Proof.lean ====
/-
  Dense self-attention over 8192 positions of 128 features: a kernel that streams the keys and values in 16 chunks of
  512 rows with a running maximum and a rescaled running sum (and gets the softmax denominator from 128 extra columns
  of ones), against the reference that forms all scores, takes softmax along each row and multiplies by the values.

  Over the extended reals the two agree on finite inputs. Per query row: the scale may be folded into the query or
  applied to the product (distributivity over a finite sum of reals); after the first chunk the running maximum is a
  real μ, and the accumulator of a column w is  Σ exp (s k - μ) · w k  over the keys seen so far, because
  exp (μ - μ') · exp (s - μ) = exp (s - μ'); at the end the ratio of the value column's sum to the ones column's sum is
  (Σ exp (s k) · v k) / (Σ exp (s k)), whatever μ is, and so is the reference's Σ (exp (s k - M) / Σ exp (s - M)) · v k.
  The precondition (every entry finite) is what makes every quantity a real.

  The frames are the generated ones; the idealization rewrote nothing, so `preserves` is trivial.
-/
import proofs.«429636_j11828339933196_3_alg».proof.Defs
import proofs.«429636_j11828339933196_3_alg».proof.Proof.Gen.Kernel
import proofs.«429636_j11828339933196_3_alg».proof.Proof.Gen.Kernel.Skeleton
import proofs.«429636_j11828339933196_3_alg».proof.Proof.Gen.Kernel.Loops
import proofs.«429636_j11828339933196_3_alg».proof.Proof.Gen.Kernel.Launch
import proofs.«429636_j11828339933196_3_alg».proof.Proof.Gen.Kernel.Points
import proofs.«429636_j11828339933196_3_alg».proof.Proof.Gen.Kernel.Frame
import proofs.«429636_j11828339933196_3_alg».proof.Proof.Gen.KernelIdeal
import proofs.«429636_j11828339933196_3_alg».proof.Proof.Gen.KernelIdeal.Skeleton
import proofs.«429636_j11828339933196_3_alg».proof.Proof.Gen.KernelIdeal.Loops
import proofs.«429636_j11828339933196_3_alg».proof.Proof.Gen.KernelIdeal.Launch
import proofs.«429636_j11828339933196_3_alg».proof.Proof.Gen.KernelIdeal.Points
import proofs.«429636_j11828339933196_3_alg».proof.Proof.Gen.KernelIdeal.Frame
import proofs.«429636_j11828339933196_3_alg».proof.Proof.Gen.ReferenceIdeal
import proofs.«429636_j11828339933196_3_alg».proof.Proof.Gen.Pre_finite_inputs
import proofs.«429636_j11828339933196_3_alg».proof.Proof.Gen.KernelIdeal.Value
import proofs.«429636_j11828339933196_3_alg».proof.Proof.Gen.ReferenceIdeal.Run
import proofs.«429636_j11828339933196_3_alg».proof.Proof.Gen.ReferenceIdeal.Read
import proofs.«429636_j11828339933196_3_alg».proof.Proof.Finite
import proofs.«429636_j11828339933196_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the streaming form of attention of the (agreeing, finite) arguments. -/
theorem algebraic : Cert.algebraic_KernelIdeal_ReferenceIdeal := by
  intro m ρ m' ρ' hpre hagree
  refine ⟨_, Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v14_eq]
  obtain ⟨f0, f1, f2⟩ := Cert.Pre_finite_inputs.Finite.finite_of_pre _ _ _ (hpre c)
  exact Cert.Bridge.ref_eq_attn _ _ _ f0 f1 f2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
